-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x2 : Shape := ⟨2, ![96, 2]⟩
abbrev S2 : Shape := ⟨1, ![2]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x2 : S_.BroadcastsInDim S96x2 (![] : Fin 0 → Fin S96x2.rank)
  reducesTo_S96x2_S_d0_1 : S96x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S96x2 1) : IVec S_ 1 :=
  let main_c_5 : IVec S_ 1 := constantI S_ 1 1#1
  let main_v17 : IVec S_ 1 := (fun x v => Host.reduce IntOp.andi x v reducesTo_S96x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x96 .f32) (main_arg1 : IVec S2x800000 32) (main_arg2 : FVec F S96x96 .f32) (main_arg3 : FVec F S96 .f32) (main_arg4 : FVec F S96x2 .f32) (main_arg5 : FVec F S2 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x2 .f32 := Host.absf main_arg4
  let main_cst_4 : FVec F S_ .f32 := constant S_ .f32 0x7F800000#32
  let main_v15 : FVec F S96x2 .f32 := broadcastInDim S96x2 ![] bcast_S_S96x2 main_cst_4
  let main_v16 : IVec S96x2 1 := cmpf .olt main_v14 main_v15
  fn_part1 (F := F) main_arg5 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x2 : Shape := ⟨2, ![96, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S5000x96 : Shape := ⟨2, ![5000, 96]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 40
  | .vmem => 16
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x2, .f32⟩
  | .hbm, ⟨5, _⟩ => ⟨S2, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x96, .f32⟩
  | .hbm, ⟨19, _⟩ => ⟨S_, .f32⟩
  | .hbm, ⟨20, _⟩ => ⟨S50000x96, .f32⟩
  | .hbm, ⟨21, _⟩ => ⟨S800000x1, .i32⟩
  | .hbm, ⟨22, _⟩ => ⟨S50000x96, .f32⟩
  | .hbm, ⟨23, _⟩ => ⟨S1x96, .f32⟩
  | .hbm, ⟨24, _⟩ => ⟨S50000x96, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x96, .f32⟩
  | .hbm, ⟨34, _⟩ => ⟨S_, .f32⟩
  | .hbm, ⟨35, _⟩ => ⟨S50000x96, .f32⟩
  | .hbm, ⟨36, _⟩ => ⟨S800000x1, .i32⟩
  | .hbm, ⟨37, _⟩ => ⟨S50000x96, .f32⟩
  | .hbm, ⟨38, _⟩ => ⟨S1x2, .f32⟩
  | .hbm, ⟨39, _⟩ => ⟨S50000x2, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .f32⟩
  | .local _ .vmem, ⟨5, _⟩ => ⟨S1x96, .f32⟩
  | .local _ .vmem, ⟨6, _⟩ => ⟨S5000x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S96x2, .f32⟩
  | .local _ .vmem, ⟨13, _⟩ => ⟨S1x2, .f32⟩
  | .local _ .vmem, ⟨14, _⟩ => ⟨S5000x2, .f32⟩
  | .local _ .vmem, ⟨15, _⟩ => ⟨S5000x2, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  shapeCasts_S2_S1x2 : S2.ShapeCasts S1x2
  inb_S96x2_S96x2_0_0 : ∀ a, (![0, 0] : Fin 2 → Nat) a + S96x2.size a ≤ S96x2.size a
  h_S96x2 : 0 < S96x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S5000x96_S96x2_S5000x2_1_0_0_1_n_n_wf : DotDims.WF S5000x96 S96x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x96.size a ≤ S50000x96.size a
  hwx0_4 : ∀ i : grid0.Coords, EltTy.bits .f32 = 32 ∨ (Rect.block (s := S50000x96) S5000x96.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x2.size a ≤ S96x2.size a
  hwx1_2 : ∀ i : grid1.Coords, EltTy.bits .f32 = 32 ∨ (Rect.block (s := S96x2) S96x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2.size a ≤ S1x2.size a
  hwx1_3 : ∀ i : grid1.Coords, EltTy.bits .f32 = 32 ∨ (Rect.block (s := S1x2) S1x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x2.size a ≤ S50000x2.size a
  hwx1_4 : ∀ i : grid1.Coords, EltTy.bits .f32 = 32 ∨ (Rect.block (s := S50000x2) S5000x2.size (cc1_transform_4 i) (hinb1_4 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x2_S5000x2_1_0_0_1_n_n : DotDims S5000x96 S96x2 S5000x2 where
  lhsContracting := [1]
  rhsContracting := [0]
  lhsNonContracting := [0]
  rhsNonContracting := [1]
  lhsBatch := []
  rhsBatch := []
  wf := dot_S5000x96_S96x2_S5000x2_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S96x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x2 : Shape := ⟨2, ![96, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S50000x2 : Shape := ⟨2, ![50000, 2]⟩
abbrev S1x2 : Shape := ⟨2, ![1, 2]⟩

abbrev nBuf : Space → Nat
  | .hbm => 49
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x2, .f32⟩
  | .hbm, ⟨5, _⟩ => ⟨S2, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x96, .f32⟩
  | .hbm, ⟨19, _⟩ => ⟨S_, .f32⟩
  | .hbm, ⟨20, _⟩ => ⟨S50000x96, .f32⟩
  | .hbm, ⟨21, _⟩ => ⟨S800000x1, .i32⟩
  | .hbm, ⟨22, _⟩ => ⟨S50000x96, .f32⟩
  | .hbm, ⟨23, _⟩ => ⟨S50000x96, .f32⟩
  | .hbm, ⟨24, _⟩ => ⟨S50000x96, .f32⟩
  | .hbm, ⟨25, _⟩ => ⟨S1x96, .f32⟩
  | .hbm, ⟨26, _⟩ => ⟨S50000x96, .f32⟩
  | .hbm, ⟨27, _⟩ => ⟨S50000x96, .f32⟩
  | .hbm, ⟨28, _⟩ => ⟨S_, .f32⟩
  | .hbm, ⟨29, _⟩ => ⟨S50000x96, .f32⟩
  | .hbm, ⟨30, _⟩ => ⟨S50000x96, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x96, .f32⟩
  | .hbm, ⟨40, _⟩ => ⟨S_, .f32⟩
  | .hbm, ⟨41, _⟩ => ⟨S50000x96, .f32⟩
  | .hbm, ⟨42, _⟩ => ⟨S800000x1, .i32⟩
  | .hbm, ⟨43, _⟩ => ⟨S50000x96, .f32⟩
  | .hbm, ⟨44, _⟩ => ⟨S50000x96, .f32⟩
  | .hbm, ⟨45, _⟩ => ⟨S50000x2, .f32⟩
  | .hbm, ⟨46, _⟩ => ⟨S1x2, .f32⟩
  | .hbm, ⟨47, _⟩ => ⟨S50000x2, .f32⟩
  | .hbm, ⟨48, _⟩ => ⟨S50000x2, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x96_S96x2_S50000x2_1_0_0_1_n_n_wf : DotDims.WF S50000x96 S96x2 S50000x2 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x2_S50000x2_1_0_0_1_n_n : DotDims S50000x96 S96x2 S50000x2 where
  lhsContracting := [1]
  rhsContracting := [0]
  lhsNonContracting := [0]
  rhsNonContracting := [1]
  lhsBatch := []
  rhsBatch := []
  wf := dot_S50000x96_S96x2_S50000x2_1_0_0_1_n_n_wf

class Facts : Prop extends Facts₀ where

variable [Facts]
-- ==== Proof.KPay.lean ====
/-
  What one grid point of each layer stores, read at an entry of its block of 5000 nodes.
  The block of the hidden layer holds, at (r, c),  max((∑ k, (x[r,k] + a[r,k]) · W[k,c]) + b[0,c], 0)  of the
  point's blocks of `x` and `a` and the whole `W` and `b`; the block of the output layer the same sum without the
  maximum. On the extended reals the narrowing of the matrix product's operands to bf16 changes nothing, the
  product into a zero accumulator is the plain sum over the 96 shared features, and the bias row is repeated
  down the block.
-/
import proofs.«148919_j36627481100824_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.TcCoe

/-! ## Where an entry of a block reads its operands -/

/-- Feature `k` of the node in row `j 0` of a block of 5000 nodes. -/
abbrev rowH (j : S5000x96.Idx) (k : Fin 96) : S5000x96.Idx := fun a => match a with
  | ⟨0, _⟩ => ⟨(j 0).val, (j 0).isLt⟩
  | ⟨1, _⟩ => ⟨k.val, k.isLt⟩
/-- Row `k` of the hidden weights in the column of entry `j`. -/
abbrev colH (j : S5000x96.Idx) (k : Fin 96) : S96x96.Idx := fun a => match a with
  | ⟨0, _⟩ => ⟨k.val, k.isLt⟩
  | ⟨1, _⟩ => ⟨(j 1).val, (j 1).isLt⟩
/-- The hidden bias in the column of entry `j`. -/
abbrev biasH (j : S5000x96.Idx) : S1x96.Idx := fun a => match a with
  | ⟨0, _⟩ => ⟨0, Nat.one_pos⟩
  | ⟨1, _⟩ => ⟨(j 1).val, (j 1).isLt⟩
/-- Feature `k` of the node in row `j 0` of a block, for an entry of the output layer. -/
abbrev rowO (j : S5000x2.Idx) (k : Fin 96) : S5000x96.Idx := fun a => match a with
  | ⟨0, _⟩ => ⟨(j 0).val, (j 0).isLt⟩
  | ⟨1, _⟩ => ⟨k.val, k.isLt⟩
/-- Row `k` of the class weights in the column of entry `j`. -/
abbrev colO (j : S5000x2.Idx) (k : Fin 96) : S96x2.Idx := fun a => match a with
  | ⟨0, _⟩ => ⟨k.val, k.isLt⟩
  | ⟨1, _⟩ => ⟨(j 1).val, (j 1).isLt⟩
/-- The class bias in the column of entry `j`. -/
abbrev biasO (j : S5000x2.Idx) : S1x2.Idx := fun a => match a with
  | ⟨0, _⟩ => ⟨0, Nat.one_pos⟩
  | ⟨1, _⟩ => ⟨(j 1).val, (j 1).isLt⟩

/-! ## The hidden layer's block product: which operand entries meet at output entry `j` and shared feature `q` -/

theorem lhs_hid_0 (j : S5000x96.Idx) (q : dot_S5000x96_S96x96_S5000x96_1_0_0_1_n_n.contr.Idx) :
    (dot_S5000x96_S96x96_S5000x96_1_0_0_1_n_n.lhsIdx j q 0).val = (j 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem lhs_hid_1 (j : S5000x96.Idx) (q : dot_S5000x96_S96x96_S5000x96_1_0_0_1_n_n.contr.Idx) :
    (dot_S5000x96_S96x96_S5000x96_1_0_0_1_n_n.lhsIdx j q 1).val = (q ⟨0, by decide⟩).val :=
  dot_S5000x96_S96x96_S5000x96_1_0_0_1_n_n.lhsIdx_val_of_single rfl j q
theorem rhs_hid_0 (j : S5000x96.Idx) (q : dot_S5000x96_S96x96_S5000x96_1_0_0_1_n_n.contr.Idx) :
    (dot_S5000x96_S96x96_S5000x96_1_0_0_1_n_n.rhsIdx j q 0).val = (q ⟨0, by decide⟩).val :=
  dot_S5000x96_S96x96_S5000x96_1_0_0_1_n_n.rhsIdx_val_of_single rfl j q
theorem rhs_hid_1 (j : S5000x96.Idx) (q : dot_S5000x96_S96x96_S5000x96_1_0_0_1_n_n.contr.Idx) :
    (dot_S5000x96_S96x96_S5000x96_1_0_0_1_n_n.rhsIdx j q 1).val = (j 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- The hidden layer's block product into a zero accumulator, at entry `j`: the sum over the 96 shared features
    of the left block's row times the right block's column. -/
theorem matmul_hid_apply (l : FVec Ideal S5000x96 .bf16) (r : FVec Ideal S96x96 .bf16) (j : S5000x96.Idx) :
    matmul dot_S5000x96_S96x96_S5000x96_1_0_0_1_n_n none l r (constant S5000x96 .f32 0x00000000#32) j
      = ∑ k : Fin 96, l (rowH j k) * r (colH j k) := by
  show FloatOps.matmul dot_S5000x96_S96x96_S5000x96_1_0_0_1_n_n none l r (constant S5000x96 .f32 0x00000000#32) j = _
  rw [Ideal.matmul_constant_zero_apply, ← Equiv.sum_comp (ValueIdx.contrEquiv1 dot_S5000x96_S96x96_S5000x96_1_0_0_1_n_n 96 rfl rfl).symm]
  refine Finset.sum_congr rfl fun k _ => ?_
  have hk := ValueIdx.contrEquiv1_symm_val dot_S5000x96_S96x96_S5000x96_1_0_0_1_n_n 96 rfl rfl k
  have el : dot_S5000x96_S96x96_S5000x96_1_0_0_1_n_n.lhsIdx j ((ValueIdx.contrEquiv1 dot_S5000x96_S96x96_S5000x96_1_0_0_1_n_n 96 rfl rfl).symm k) = rowH j k := funext fun a => Fin.ext (by
    match a with
    | ⟨0, _⟩ => exact lhs_hid_0 _ _
    | ⟨1, _⟩ => exact (lhs_hid_1 _ _).trans hk)
  have er : dot_S5000x96_S96x96_S5000x96_1_0_0_1_n_n.rhsIdx j ((ValueIdx.contrEquiv1 dot_S5000x96_S96x96_S5000x96_1_0_0_1_n_n 96 rfl rfl).symm k) = colH j k := funext fun a => Fin.ext (by
    match a with
    | ⟨0, _⟩ => exact (rhs_hid_0 _ _).trans hk
    | ⟨1, _⟩ => exact rhs_hid_1 _ _)
  rw [el, er]

/-! ## The output layer's block product -/

theorem lhs_cls_0 (j : S5000x2.Idx) (q : dot_S5000x96_S96x2_S5000x2_1_0_0_1_n_n.contr.Idx) :
    (dot_S5000x96_S96x2_S5000x2_1_0_0_1_n_n.lhsIdx j q 0).val = (j 0).val := by
  unfold DotDims.lhsIdx
  rw [dif_neg (show ¬(0 : Fin S5000x96.rank) ∈ dot_S5000x96_S96x2_S5000x2_1_0_0_1_n_n.lhsBatch by decide), dif_pos (show (0 : Fin S5000x96.rank) ∈ dot_S5000x96_S96x2_S5000x2_1_0_0_1_n_n.lhsNonContracting by decide)]
  rfl
theorem lhs_cls_1 (j : S5000x2.Idx) (q : dot_S5000x96_S96x2_S5000x2_1_0_0_1_n_n.contr.Idx) :
    (dot_S5000x96_S96x2_S5000x2_1_0_0_1_n_n.lhsIdx j q 1).val = (q ⟨0, by decide⟩).val :=
  dot_S5000x96_S96x2_S5000x2_1_0_0_1_n_n.lhsIdx_val_of_single rfl j q
theorem rhs_cls_0 (j : S5000x2.Idx) (q : dot_S5000x96_S96x2_S5000x2_1_0_0_1_n_n.contr.Idx) :
    (dot_S5000x96_S96x2_S5000x2_1_0_0_1_n_n.rhsIdx j q 0).val = (q ⟨0, by decide⟩).val :=
  dot_S5000x96_S96x2_S5000x2_1_0_0_1_n_n.rhsIdx_val_of_single rfl j q
theorem rhs_cls_1 (j : S5000x2.Idx) (q : dot_S5000x96_S96x2_S5000x2_1_0_0_1_n_n.contr.Idx) :
    (dot_S5000x96_S96x2_S5000x2_1_0_0_1_n_n.rhsIdx j q 1).val = (j 1).val := by
  unfold DotDims.rhsIdx
  rw [dif_neg (show ¬(1 : Fin S96x2.rank) ∈ dot_S5000x96_S96x2_S5000x2_1_0_0_1_n_n.rhsBatch by decide), dif_pos (show (1 : Fin S96x2.rank) ∈ dot_S5000x96_S96x2_S5000x2_1_0_0_1_n_n.rhsNonContracting by decide)]
  rfl

/-- The output layer's block product into a zero accumulator, at entry `j`. -/
theorem matmul_cls_apply (l : FVec Ideal S5000x96 .bf16) (r : FVec Ideal S96x2 .bf16) (j : S5000x2.Idx) :
    matmul dot_S5000x96_S96x2_S5000x2_1_0_0_1_n_n none l r (constant S5000x2 .f32 0x00000000#32) j
      = ∑ k : Fin 96, l (rowO j k) * r (colO j k) := by
  show FloatOps.matmul dot_S5000x96_S96x2_S5000x2_1_0_0_1_n_n none l r (constant S5000x2 .f32 0x00000000#32) j = _
  rw [Ideal.matmul_constant_zero_apply, ← Equiv.sum_comp (ValueIdx.contrEquiv1 dot_S5000x96_S96x2_S5000x2_1_0_0_1_n_n 96 rfl rfl).symm]
  refine Finset.sum_congr rfl fun k _ => ?_
  have hk := ValueIdx.contrEquiv1_symm_val dot_S5000x96_S96x2_S5000x2_1_0_0_1_n_n 96 rfl rfl k
  have el : dot_S5000x96_S96x2_S5000x2_1_0_0_1_n_n.lhsIdx j ((ValueIdx.contrEquiv1 dot_S5000x96_S96x2_S5000x2_1_0_0_1_n_n 96 rfl rfl).symm k) = rowO j k := funext fun a => Fin.ext (by
    match a with
    | ⟨0, _⟩ => exact lhs_cls_0 _ _
    | ⟨1, _⟩ => exact (lhs_cls_1 _ _).trans hk)
  have er : dot_S5000x96_S96x2_S5000x2_1_0_0_1_n_n.rhsIdx j ((ValueIdx.contrEquiv1 dot_S5000x96_S96x2_S5000x2_1_0_0_1_n_n 96 rfl rfl).symm k) = colO j k := funext fun a => Fin.ext (by
    match a with
    | ⟨0, _⟩ => exact (rhs_cls_0 _ _).trans hk
    | ⟨1, _⟩ => exact rhs_cls_1 _ _)
  rw [el, er]

/-! ## The bias row repeated down a block -/

theorem bias_hid_apply (b : Vec Ideal S1x96 .f32) (j : S5000x96.Idx) :
    broadcastTo S5000x96 b broadcasts_S1x96_S5000x96 j = b (biasH j) :=
  broadcastTo_apply b broadcasts_S1x96_S5000x96 j (biasH j) (fun a => match a with
    | ⟨0, _⟩ => by show 0 = if (1 : Nat) = 1 then 0 else (j 0).val; rw [if_pos rfl]
    | ⟨1, _⟩ => by show (j 1).val = if (96 : Nat) = 1 then 0 else (j 1).val; rw [if_neg (by decide)])

theorem bias_cls_apply (b : Vec Ideal S1x2 .f32) (j : S5000x2.Idx) :
    broadcastTo S5000x2 b broadcasts_S1x2_S5000x2 j = b (biasO j) :=
  broadcastTo_apply b broadcasts_S1x2_S5000x2 j (biasO j) (fun a => match a with
    | ⟨0, _⟩ => by show 0 = if (1 : Nat) = 1 then 0 else (j 0).val; rw [if_pos rfl]
    | ⟨1, _⟩ => by show (j 1).val = if (2 : Nat) = 1 then 0 else (j 1).val; rw [if_neg (by decide)])

/-! ## The stored blocks, entry by entry -/

/-- The hidden layer's stored block at entry `j`: the casts of a block to its own shape are the identity, the
    narrowing to bf16 is the identity on the extended reals, and the maximum is taken against the zero constant. -/
theorem hidden_block_apply (x a : Vec Ideal S5000x96 .f32) (W : Vec Ideal S96x96 .f32) (b : Vec Ideal S1x96 .f32) (j : S5000x96.Idx) :
    k0_pay1 (F := Ideal) x a W b j
      = max ((∑ k : Fin 96, (x (rowH j k) + a (rowH j k)) * W (colH j k)) + b (biasH j)) (Ideal.ofBits .f32 0x00000000#32) := by
  unfold k0_pay1
  simp only [shapeCast_self]
  rw [ValueIdx.maximumf_apply, ValueIdx.addf_apply, matmul_hid_apply, bias_hid_apply]
  rfl

/-- The output layer's stored block at entry `j`. -/
theorem output_block_apply (x a : Vec Ideal S5000x96 .f32) (W : Vec Ideal S96x2 .f32) (b : Vec Ideal S1x2 .f32) (j : S5000x2.Idx) :
    k1_pay1 (F := Ideal) x a W b j
      = (∑ k : Fin 96, (x (rowO j k) + a (rowO j k)) * W (colO j k)) + b (biasO j) := by
  unfold k1_pay1
  simp only [shapeCast_self]
  rw [ValueIdx.addf_apply, matmul_cls_apply, bias_cls_apply]
  rfl

end Cert.KernelIdeal.Pay

end
-- ==== Proof.Spec.lean ====
/-
  Two graph-isomorphism layers over 50000 nodes with 96 features.
  One layer sends node features `x` and their neighbour sums `a` to the affine map of `x + a`:
  entry (r, c) is  (∑ k, (x[r,k] + a[r,k]) · W[k,c]) + b[0,c].
  The first layer (96 → 96) is followed by max(·, 0); the second (96 → 2) is not.
  The network applies the first layer to `x` with `a = agg x`, then the second to the hidden
  features `h` with `a = agg h`, where `agg` is whatever neighbour aggregation the caller supplies:
  nothing here depends on what `agg` computes.
  Everything is stated on the extended reals, index by index, over the literal shapes.
-/
import Idealize.ShloMosaic.PureOps.Ideal.Laws
import Idealize.ShloMosaic.Lib.ValueIdx

noncomputable section

namespace Gin

open Idealize.ShloMosaic

abbrev Nodes : Shape := ⟨2, ![50000, 96]⟩
abbrev Hid : Shape := ⟨2, ![96, 96]⟩
abbrev Cls : Shape := ⟨2, ![96, 2]⟩
abbrev BiasHid : Shape := ⟨2, ![1, 96]⟩
abbrev BiasCls : Shape := ⟨2, ![1, 2]⟩
abbrev Out : Shape := ⟨2, ![50000, 2]⟩

/-- Feature `k` of the node in whose row the hidden-layer entry `i` lies. -/
abbrev featH (i : Nodes.Idx) (k : Fin 96) : Nodes.Idx := fun a => match a with
  | ⟨0, _⟩ => ⟨(i 0).val, (i 0).isLt⟩
  | ⟨1, _⟩ => ⟨k.val, k.isLt⟩
/-- Row `k` of the hidden weights in the column of entry `i`. -/
abbrev wgtH (i : Nodes.Idx) (k : Fin 96) : Hid.Idx := fun a => match a with
  | ⟨0, _⟩ => ⟨k.val, k.isLt⟩
  | ⟨1, _⟩ => ⟨(i 1).val, (i 1).isLt⟩
/-- The hidden bias in the column of entry `i`. -/
abbrev biasH (i : Nodes.Idx) : BiasHid.Idx := fun a => match a with
  | ⟨0, _⟩ => ⟨0, Nat.one_pos⟩
  | ⟨1, _⟩ => ⟨(i 1).val, (i 1).isLt⟩

/-- Feature `k` of the node in whose row the output entry `i` lies. -/
abbrev featO (i : Out.Idx) (k : Fin 96) : Nodes.Idx := fun a => match a with
  | ⟨0, _⟩ => ⟨(i 0).val, (i 0).isLt⟩
  | ⟨1, _⟩ => ⟨k.val, k.isLt⟩
/-- Row `k` of the class weights in the column of entry `i`. -/
abbrev wgtO (i : Out.Idx) (k : Fin 96) : Cls.Idx := fun a => match a with
  | ⟨0, _⟩ => ⟨k.val, k.isLt⟩
  | ⟨1, _⟩ => ⟨(i 1).val, (i 1).isLt⟩
/-- The class bias in the column of entry `i`. -/
abbrev biasO (i : Out.Idx) : BiasCls.Idx := fun a => match a with
  | ⟨0, _⟩ => ⟨0, Nat.one_pos⟩
  | ⟨1, _⟩ => ⟨(i 1).val, (i 1).isLt⟩

/-- The hidden layer: max((x + a) · W + b, 0), entry by entry. -/
def hidden (x a : Nodes.Idx → EReal) (W : Hid.Idx → EReal) (b : BiasHid.Idx → EReal) : Nodes.Idx → EReal := fun i =>
  max ((∑ k : Fin 96, (x (featH i k) + a (featH i k)) * W (wgtH i k)) + b (biasH i)) (Ideal.ofBits .f32 0x00000000#32)

/-- The output layer: (x + a) · W + b, entry by entry. -/
def output (x a : Nodes.Idx → EReal) (W : Cls.Idx → EReal) (b : BiasCls.Idx → EReal) : Out.Idx → EReal := fun i =>
  (∑ k : Fin 96, (x (featO i k) + a (featO i k)) * W (wgtO i k)) + b (biasO i)

/-- The two layers composed, each over its own neighbour sums. -/
def net (agg : (Nodes.Idx → EReal) → Nodes.Idx → EReal) (x : Nodes.Idx → EReal) (W1 : Hid.Idx → EReal) (b1 : BiasHid.Idx → EReal)
    (W2 : Cls.Idx → EReal) (b2 : BiasCls.Idx → EReal) : Out.Idx → EReal :=
  output (hidden x (agg x) W1 b1) (agg (hidden x (agg x) W1 b1)) W2 b2

end Gin

end
-- ==== Proof.KHidden.lean ====
/-
  The first call's result array, as one function of the arrays the call finds on entry.
  The call walks ten blocks of 5000 nodes. At point `t` it reads block `t` of the node features and of their
  neighbour sums, the whole hidden weights and the bias row, and writes block `t` of its result. Entry (r, c) of
  that block is the hidden layer's value at node `5000·t + r`, which depends only on that node's own row: so
  each written block is the corresponding block of the whole hidden layer, the ten blocks tile the 50000 rows,
  and the array ends holding the hidden layer of the entry contents.
-/
import proofs.«148919_j36627481100824_1_alg».proof.Proof.Gen.KernelIdeal.Frame
import proofs.«148919_j36627481100824_1_alg».proof.Proof.KPay
import proofs.«148919_j36627481100824_1_alg».proof.Proof.Spec
import Idealize.ShloMosaic.Lib.Pipeline.Value

noncomputable section

namespace Cert.KernelIdeal.Hidden

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the ten points: the features, the neighbour sums and the result move together down the
    rows and never across; the weights and the bias stay at their one block. -/
theorem block_of_point : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 9 ∧ win0_4.index t (1 : Fin 2) = 0 :=
  (by decide +kernel : ∀ t : Fin grid0.N, _)

/-- Every one of the ten row blocks is some point's. -/
theorem point_of_block : ∀ q : Fin 10, ∃ t : Fin cfg0.N, win0_4.index t = ![q.val, 0] :=
  (by decide +kernel : ∀ q : Fin 10, ∃ t : Fin grid0.N, win0_4.index t = ![q.val, 0])

/-! ## The point's operand blocks, at their literal types -/

abbrev xblk (c : Dev nD) (t : Fin cfg0.N) : Vec Ideal S5000x96 .f32 := iblk0 V c 0 t
abbrev ablk (c : Dev nD) (t : Fin cfg0.N) : Vec Ideal S5000x96 .f32 := iblk0 V c 1 t
abbrev wblk (c : Dev nD) (t : Fin cfg0.N) : Vec Ideal S96x96 .f32 := iblk0 V c 2 t
abbrev bblk (c : Dev nD) (t : Fin cfg0.N) : Vec Ideal S1x96 .f32 := iblk0 V c 3 t

/-- Feature `k` of row `j 0` of the point's feature block is feature `k` of the node the result entry `j` belongs to. -/
theorem x_at (c : Dev nD) (t : Fin cfg0.N) (j : S5000x96.Idx) (k : Fin 96) :
    xblk V c t (Pay.rowH j k) = V c main_arg0 (Gin.featH (((cfg0.win 4).blk t).view.emb j) k) := by
  obtain ⟨e0, e1, e2, e3, e4, e5, e6, e7, e8, e9⟩ := block_of_point t
  show V c main_arg0 (((cfg0.win 0).blk t).view.emb (Pay.rowH j k)) = _
  refine congrArg (V c main_arg0) (funext fun a => Fin.ext ?_)
  match a with
  | ⟨0, _⟩ => show win0_0.index t (0 : Fin 2) * 5000 + 1 * (j 0).val = win0_4.index t (0 : Fin 2) * 5000 + 1 * (j 0).val; omega
  | ⟨1, _⟩ => show win0_0.index t (1 : Fin 2) * 96 + 1 * k.val = k.val; omega

/-- The same for the neighbour sums. -/
theorem a_at (c : Dev nD) (t : Fin cfg0.N) (j : S5000x96.Idx) (k : Fin 96) :
    ablk V c t (Pay.rowH j k) = V c main_v13 (Gin.featH (((cfg0.win 4).blk t).view.emb j) k) := by
  obtain ⟨e0, e1, e2, e3, e4, e5, e6, e7, e8, e9⟩ := block_of_point t
  show V c main_v13 (((cfg0.win 1).blk t).view.emb (Pay.rowH j k)) = _
  refine congrArg (V c main_v13) (funext fun a => Fin.ext ?_)
  match a with
  | ⟨0, _⟩ => show win0_1.index t (0 : Fin 2) * 5000 + 1 * (j 0).val = win0_4.index t (0 : Fin 2) * 5000 + 1 * (j 0).val; omega
  | ⟨1, _⟩ => show win0_1.index t (1 : Fin 2) * 96 + 1 * k.val = k.val; omega

/-- The weights' one block is the whole array: row `k`, the column of `j`. -/
theorem w_at (c : Dev nD) (t : Fin cfg0.N) (j : S5000x96.Idx) (k : Fin 96) :
    wblk V c t (Pay.colH j k) = V c main_arg2 (Gin.wgtH (((cfg0.win 4).blk t).view.emb j) k) := by
  obtain ⟨e0, e1, e2, e3, e4, e5, e6, e7, e8, e9⟩ := block_of_point t
  show V c main_arg2 (((cfg0.win 2).blk t).view.emb (Pay.colH j k)) = _
  refine congrArg (V c main_arg2) (funext fun a => Fin.ext ?_)
  match a with
  | ⟨0, _⟩ => show win0_2.index t (0 : Fin 2) * 96 + 1 * k.val = k.val; omega
  | ⟨1, _⟩ => show win0_2.index t (1 : Fin 2) * 96 + 1 * (j 1).val = win0_4.index t (1 : Fin 2) * 96 + 1 * (j 1).val; omega

/-- The bias row's one block is the whole row: the column of `j`. -/
theorem b_at (c : Dev nD) (t : Fin cfg0.N) (j : S5000x96.Idx) :
    bblk V c t (Pay.biasH j) = V c main_v14 (Gin.biasH (((cfg0.win 4).blk t).view.emb j)) := by
  obtain ⟨e0, e1, e2, e3, e4, e5, e6, e7, e8, e9⟩ := block_of_point t
  show V c main_v14 (((cfg0.win 3).blk t).view.emb (Pay.biasH j)) = _
  refine congrArg (V c main_v14) (funext fun a => Fin.ext ?_)
  match a with
  | ⟨0, _⟩ => show win0_3.index t (0 : Fin 2) * 1 + 1 * 0 = 0; omega
  | ⟨1, _⟩ => show win0_3.index t (1 : Fin 2) * 96 + 1 * (j 1).val = win0_4.index t (1 : Fin 2) * 96 + 1 * (j 1).val; omega

/-! ## What a point writes back, and the whole array -/

/-- Point `t` writes back block `t` of the hidden layer of the entry contents. -/
theorem flushed_eq (c : Dev nD) (t : Fin cfg0.N) :
    (dat0 V c).flushed 4 t = ((cfg0.win 4).blk t).view.read (Elt Ideal)
      (Gin.hidden (V c main_arg0) (V c main_v13) (V c main_arg2) (V c main_v14)) := by
  show (cfg0.win 4).cut (grid0.coords t) ((dat0 V c).after 4 t) = _
  rw [after0_4]
  unfold out0_4
  rw [View.canon_unit_zero origin]
  simp only [View.ld_unit_zero (S := S5000x96) origin, View.ld_unit_zero (S := S96x96) origin, View.ld_unit_zero (S := S1x96) origin]
  funext j
  show k0_pay1 (F := Ideal) (xblk V c t) (ablk V c t) (wblk V c t) (bblk V c t) j
    = Gin.hidden (V c main_arg0) (V c main_v13) (V c main_arg2) (V c main_v14) (((cfg0.win 4).blk t).view.emb j)
  refine (Pay.hidden_block_apply (xblk V c t) (ablk V c t) (wblk V c t) (bblk V c t) j).trans ?_
  unfold Gin.hidden
  refine congrArg₂ max (congrArg₂ (· + ·) (Finset.sum_congr rfl fun k _ => ?_) (b_at V c t j)) rfl
  rw [x_at V c t j k, a_at V c t j k, w_at V c t j k]

/-- A node's row is in point `t`'s block iff it is one of that block's 5000 rows. -/
theorem mem_block (t : Fin cfg0.N) (i : S50000x96.Idx) :
    i ∈ ((cfg0.win 4).blk t).view.set ↔ ∀ a : Fin 2, win0_4.index t a * S5000x96.size a ≤ (i a).val ∧ (i a).val < win0_4.index t a * S5000x96.size a + S5000x96.size a := by
  show i ∈ ((View.whole main_v15).slice (win0_4.rect t)).set ↔ _
  rw [View.set_slice_whole, Rect.mem_set_unit]
  exact Iff.rfl

/-- Every entry is written: node `r` lies in block `r / 5000`. -/
theorem covered (i : S50000x96.Idx) : ∃ t : Fin cfg0.N, (cfg0.win 4).flush t = true ∧ i ∈ ((cfg0.win 4).blk t).view.set := by
  have hi0 : (i 0).val < 50000 := (i 0).isLt
  have hi1 : (i 1).val < 96 := (i 1).isLt
  obtain ⟨t, ht⟩ := point_of_block ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 96 ≤ (i 1).val ∧ (i 1).val < win0_4.index t (1 : Fin 2) * 96 + 96; omega

/-- After the call its result array holds the hidden layer of the arrays it found on entry. -/
theorem final (c : Dev nD) :
    (dat0 V c).arrAt 4 cfg0.N = Gin.hidden (V c main_arg0) (V c main_v13) (V c main_arg2) (V c main_v14) :=
  (dat0 V c).arrAt_eq_of_cover 4 _ (fun t _ => flushed_eq V c t) (covered)

end Cert.KernelIdeal.Hidden

end
-- ==== Proof.KOutput.lean ====
/-
  The second call's result array, as one function of the arrays the call finds on entry.
  The call walks the same ten blocks of 5000 nodes. At point `t` it reads block `t` of the hidden features and of
  their neighbour sums, the whole class weights and the class bias row, and writes block `t` of the two-column
  result. Entry (r, c) of that block is the output layer's value at node `5000·t + r`, which depends only on that
  node's own row: each written block is the corresponding block of the whole output layer, the ten blocks tile
  the 50000 rows, and the array ends holding the output layer of the entry contents.
-/
import proofs.«148919_j36627481100824_1_alg».proof.Proof.Gen.KernelIdeal.Frame
import proofs.«148919_j36627481100824_1_alg».proof.Proof.KPay
import proofs.«148919_j36627481100824_1_alg».proof.Proof.Spec
import Idealize.ShloMosaic.Lib.Pipeline.Value

noncomputable section

namespace Cert.KernelIdeal.Output

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the ten points: the hidden features, their neighbour sums and the result move together
    down the rows and never across; the class weights and the class bias stay at their one block. -/
theorem block_of_point : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 9 ∧ win1_4.index t (1 : Fin 2) = 0 :=
  (by decide +kernel : ∀ t : Fin grid1.N, _)

/-- Every one of the ten row blocks is some point's. -/
theorem point_of_block : ∀ q : Fin 10, ∃ t : Fin cfg1.N, win1_4.index t = ![q.val, 0] :=
  (by decide +kernel : ∀ q : Fin 10, ∃ t : Fin grid1.N, win1_4.index t = ![q.val, 0])

/-! ## The point's operand blocks, at their literal types -/

abbrev hblk (c : Dev nD) (t : Fin cfg1.N) : Vec Ideal S5000x96 .f32 := iblk1 V c 0 t
abbrev ablk (c : Dev nD) (t : Fin cfg1.N) : Vec Ideal S5000x96 .f32 := iblk1 V c 1 t
abbrev wblk (c : Dev nD) (t : Fin cfg1.N) : Vec Ideal S96x2 .f32 := iblk1 V c 2 t
abbrev bblk (c : Dev nD) (t : Fin cfg1.N) : Vec Ideal S1x2 .f32 := iblk1 V c 3 t

/-- Feature `k` of row `j 0` of the point's hidden block is feature `k` of the node the result entry `j` belongs to. -/
theorem h_at (c : Dev nD) (t : Fin cfg1.N) (j : S5000x2.Idx) (k : Fin 96) :
    hblk V c t (Pay.rowO j k) = V c main_v15 (Gin.featO (((cfg1.win 4).blk t).view.emb j) k) := by
  obtain ⟨e0, e1, e2, e3, e4, e5, e6, e7, e8, e9⟩ := block_of_point t
  show V c main_v15 (((cfg1.win 0).blk t).view.emb (Pay.rowO j k)) = _
  refine congrArg (V c main_v15) (funext fun a => Fin.ext ?_)
  match a with
  | ⟨0, _⟩ => show win1_0.index t (0 : Fin 2) * 5000 + 1 * (j 0).val = win1_4.index t (0 : Fin 2) * 5000 + 1 * (j 0).val; omega
  | ⟨1, _⟩ => show win1_0.index t (1 : Fin 2) * 96 + 1 * k.val = k.val; omega

/-- The same for the neighbour sums. -/
theorem a_at (c : Dev nD) (t : Fin cfg1.N) (j : S5000x2.Idx) (k : Fin 96) :
    ablk V c t (Pay.rowO j k) = V c main_v25 (Gin.featO (((cfg1.win 4).blk t).view.emb j) k) := by
  obtain ⟨e0, e1, e2, e3, e4, e5, e6, e7, e8, e9⟩ := block_of_point t
  show V c main_v25 (((cfg1.win 1).blk t).view.emb (Pay.rowO j k)) = _
  refine congrArg (V c main_v25) (funext fun a => Fin.ext ?_)
  match a with
  | ⟨0, _⟩ => show win1_1.index t (0 : Fin 2) * 5000 + 1 * (j 0).val = win1_4.index t (0 : Fin 2) * 5000 + 1 * (j 0).val; omega
  | ⟨1, _⟩ => show win1_1.index t (1 : Fin 2) * 96 + 1 * k.val = k.val; omega

/-- The class weights' one block is the whole array: row `k`, the column of `j`. -/
theorem w_at (c : Dev nD) (t : Fin cfg1.N) (j : S5000x2.Idx) (k : Fin 96) :
    wblk V c t (Pay.colO j k) = V c main_arg4 (Gin.wgtO (((cfg1.win 4).blk t).view.emb j) k) := by
  obtain ⟨e0, e1, e2, e3, e4, e5, e6, e7, e8, e9⟩ := block_of_point t
  show V c main_arg4 (((cfg1.win 2).blk t).view.emb (Pay.colO j k)) = _
  refine congrArg (V c main_arg4) (funext fun a => Fin.ext ?_)
  match a with
  | ⟨0, _⟩ => show win1_2.index t (0 : Fin 2) * 96 + 1 * k.val = k.val; omega
  | ⟨1, _⟩ => show win1_2.index t (1 : Fin 2) * 2 + 1 * (j 1).val = win1_4.index t (1 : Fin 2) * 2 + 1 * (j 1).val; omega

/-- The class bias row's one block is the whole row: the column of `j`. -/
theorem b_at (c : Dev nD) (t : Fin cfg1.N) (j : S5000x2.Idx) :
    bblk V c t (Pay.biasO j) = V c main_v26 (Gin.biasO (((cfg1.win 4).blk t).view.emb j)) := by
  obtain ⟨e0, e1, e2, e3, e4, e5, e6, e7, e8, e9⟩ := block_of_point t
  show V c main_v26 (((cfg1.win 3).blk t).view.emb (Pay.biasO j)) = _
  refine congrArg (V c main_v26) (funext fun a => Fin.ext ?_)
  match a with
  | ⟨0, _⟩ => show win1_3.index t (0 : Fin 2) * 1 + 1 * 0 = 0; omega
  | ⟨1, _⟩ => show win1_3.index t (1 : Fin 2) * 2 + 1 * (j 1).val = win1_4.index t (1 : Fin 2) * 2 + 1 * (j 1).val; omega

/-! ## What a point writes back, and the whole array -/

/-- Point `t` writes back block `t` of the output layer of the entry contents. -/
theorem flushed_eq (c : Dev nD) (t : Fin cfg1.N) :
    (dat1 V c).flushed 4 t = ((cfg1.win 4).blk t).view.read (Elt Ideal)
      (Gin.output (V c main_v15) (V c main_v25) (V c main_arg4) (V c main_v26)) := by
  show (cfg1.win 4).cut (grid1.coords t) ((dat1 V c).after 4 t) = _
  rw [after1_4]
  unfold out1_4
  rw [View.canon_unit_zero origin]
  simp only [View.ld_unit_zero (S := S5000x96) origin, View.ld_unit_zero (S := S96x2) origin, View.ld_unit_zero (S := S1x2) origin]
  funext j
  show k1_pay1 (F := Ideal) (hblk V c t) (ablk V c t) (wblk V c t) (bblk V c t) j
    = Gin.output (V c main_v15) (V c main_v25) (V c main_arg4) (V c main_v26) (((cfg1.win 4).blk t).view.emb j)
  refine (Pay.output_block_apply (hblk V c t) (ablk V c t) (wblk V c t) (bblk V c t) j).trans ?_
  unfold Gin.output
  refine congrArg₂ (· + ·) (Finset.sum_congr rfl fun k _ => ?_) (b_at V c t j)
  rw [h_at V c t j k, a_at V c t j k, w_at V c t j k]

/-- A node's row is in point `t`'s block iff it is one of that block's 5000 rows. -/
theorem mem_block (t : Fin cfg1.N) (i : S50000x2.Idx) :
    i ∈ ((cfg1.win 4).blk t).view.set ↔ ∀ a : Fin 2, win1_4.index t a * S5000x2.size a ≤ (i a).val ∧ (i a).val < win1_4.index t a * S5000x2.size a + S5000x2.size a := by
  show i ∈ ((View.whole main_v27).slice (win1_4.rect t)).set ↔ _
  rw [View.set_slice_whole, Rect.mem_set_unit]
  exact Iff.rfl

/-- Every entry is written: node `r` lies in block `r / 5000`. -/
theorem covered (i : S50000x2.Idx) : ∃ t : Fin cfg1.N, (cfg1.win 4).flush t = true ∧ i ∈ ((cfg1.win 4).blk t).view.set := by
  have hi0 : (i 0).val < 50000 := (i 0).isLt
  have hi1 : (i 1).val < 2 := (i 1).isLt
  obtain ⟨t, ht⟩ := point_of_block ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 2 ≤ (i 1).val ∧ (i 1).val < win1_4.index t (1 : Fin 2) * 2 + 2; omega

/-- After the call its result array holds the output layer of the arrays it found on entry. -/
theorem final (c : Dev nD) :
    (dat1 V c).arrAt 4 cfg1.N = Gin.output (V c main_v15) (V c main_v25) (V c main_arg4) (V c main_v26) :=
  (dat1 V c).arrAt_eq_of_cover 4 _ (fun t _ => flushed_eq V c t) (covered)

end Cert.KernelIdeal.Output

end
-- ==== Proof.KValue.lean ====
/-
  The kernel program's result as the two layers of the specification.
  @main runs a stretch of host operations, the first call, a second stretch, the second call. The first stretch
  computes from the edge array the source node (wrapped by the node count when negative) and the destination node
  of every edge, the neighbour sums of the features (gather the source rows, add them into the destination rows
  of a zero array) and the hidden bias as a row. The first call leaves the hidden layer of features and sums in
  its result array and every other array as it was. The second stretch computes the neighbour sums of that array
  by the same operations over the same edge vectors, and the class bias as a row. The second call leaves the
  output layer of the hidden features and their sums. So the result is the specification's network over one
  aggregation `aggOf (srcOf e) (dstOf e)`, which is never opened.
-/
import proofs.«148919_j36627481100824_1_alg».proof.Proof.Gen.KernelIdeal.Frame
import proofs.«148919_j36627481100824_1_alg».proof.Proof.KHidden
import proofs.«148919_j36627481100824_1_alg».proof.Proof.KOutput
import proofs.«148919_j36627481100824_1_alg».proof.Proof.Spec
import Idealize.ShloMosaic.Lib.StableHlo.Run
import Idealize.ShloMosaic.Lib.Pipeline.Value

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo
open Idealize.ShloMosaic.Pipeline (Dat)

/-! ## The edge vectors and the aggregation, as functions -/

/-- The source node of every edge: row 0 of the edge array, a negative entry wrapped by the node count. -/
def srcOf (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The destination node of every edge: row 1 of the edge array. -/
def dstOf (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- Add, into each destination node's row of a zero array, the rows of `z` at the (wrapped) source nodes. -/
def aggOf (src dst : (⟨S800000, .i32⟩ : BufTy).Contents (Elt Ideal)) (z : FVec Ideal S50000x96 .f32) : FVec Ideal S50000x96 .f32 :=
  Host.scatterAdd (F := Ideal) (φ := .f32) scatter_S50000x96_S800000x1_S800000x96_1_0_0_1
    (broadcastInDim S50000x96 ![] bcast_S_S50000x96 (constant (F := Ideal) S_ .f32 0x00000000#32))
    (broadcastInDim S800000x1 ![0] bcast_S800000_S800000x1_0 dst)
    (Host.gather gather_S50000x96_S800000x1_S800000x96_1_0_n_n_0_1_196 z
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

variable (m : (ℓ : Loc nD τ sig) → Buf (Elt Ideal) ℓ) (ρ : Dev nD → PrngReg)

/-! ## After the first stretch (the first call's entry) -/

theorem entry1_features (c : Dev nD) : V1 m ρ c main_arg0 = m ((c : Thread nD τ).loc main_arg0) := by
  show StableHlo.after hostOps0 (W0 m ρ c) (Proc.devRef .tc main_arg0) = _
  after_results

theorem entry1_hidden_weights (c : Dev nD) : V1 m ρ c main_arg2 = m ((c : Thread nD τ).loc main_arg2) := by
  show StableHlo.after hostOps0 (W0 m ρ c) (Proc.devRef .tc main_arg2) = _
  after_results

theorem entry1_class_weights (c : Dev nD) : V1 m ρ c main_arg4 = m ((c : Thread nD τ).loc main_arg4) := by
  show StableHlo.after hostOps0 (W0 m ρ c) (Proc.devRef .tc main_arg4) = _
  after_results

theorem entry1_class_bias (c : Dev nD) : V1 m ρ c main_arg5 = m ((c : Thread nD τ).loc main_arg5) := by
  show StableHlo.after hostOps0 (W0 m ρ c) (Proc.devRef .tc main_arg5) = _
  after_results

theorem entry1_src (c : Dev nD) : V1 m ρ c main_v1 = srcOf (m ((c : Thread nD τ).loc main_arg1)) := by
  show StableHlo.after hostOps0 (W0 m ρ c) (Proc.devRef .tc main_v1) = _
  after_results
  rfl

theorem entry1_dst (c : Dev nD) : V1 m ρ c main_v3 = dstOf (m ((c : Thread nD τ).loc main_arg1)) := by
  show StableHlo.after hostOps0 (W0 m ρ c) (Proc.devRef .tc main_v3) = _
  after_results
  rfl

theorem entry1_sums (c : Dev nD) :
    V1 m ρ c main_v13 = aggOf (srcOf (m ((c : Thread nD τ).loc main_arg1))) (dstOf (m ((c : Thread nD τ).loc main_arg1))) (m ((c : Thread nD τ).loc main_arg0)) := by
  show StableHlo.after hostOps0 (W0 m ρ c) (Proc.devRef .tc main_v13) = _
  after_results
  rfl

theorem entry1_hidden_bias (c : Dev nD) :
    V1 m ρ c main_v14 = shapeCast S1x96 (m ((c : Thread nD τ).loc main_arg3)) shapeCasts_S96_S1x96 := by
  show StableHlo.after hostOps0 (W0 m ρ c) (Proc.devRef .tc main_v14) = _
  after_results
  rfl

/-! ## After the first call -/

/-- The hidden features: the first call's result array at its exit. -/
abbrev hid (c : Dev nD) : (⟨S50000x96, .f32⟩ : BufTy).Contents (Elt Ideal) :=
  Gin.hidden (m ((c : Thread nD τ).loc main_arg0))
    (aggOf (srcOf (m ((c : Thread nD τ).loc main_arg1))) (dstOf (m ((c : Thread nD τ).loc main_arg1))) (m ((c : Thread nD τ).loc main_arg0)))
    (m ((c : Thread nD τ).loc main_arg2)) (shapeCast S1x96 (m ((c : Thread nD τ).loc main_arg3)) shapeCasts_S96_S1x96)

theorem exit1_hidden (c : Dev nD) : V2 m ρ c main_v15 = hid m c := by
  refine (W2_arr m ρ c 4).trans ?_
  rw [Hidden.final (V1 m ρ) c, entry1_features, entry1_sums, entry1_hidden_weights, entry1_hidden_bias]

theorem exit1_src (c : Dev nD) : V2 m ρ c main_v1 = srcOf (m ((c : Thread nD τ).loc main_arg1)) :=
  (W2_of_ne m ρ c main_v1 (by decide)).trans (entry1_src m ρ c)

theorem exit1_dst (c : Dev nD) : V2 m ρ c main_v3 = dstOf (m ((c : Thread nD τ).loc main_arg1)) :=
  (W2_of_ne m ρ c main_v3 (by decide)).trans (entry1_dst m ρ c)

theorem exit1_class_weights (c : Dev nD) : V2 m ρ c main_arg4 = m ((c : Thread nD τ).loc main_arg4) :=
  (W2_of_ne m ρ c main_arg4 (by decide)).trans (entry1_class_weights m ρ c)

theorem exit1_class_bias (c : Dev nD) : V2 m ρ c main_arg5 = m ((c : Thread nD τ).loc main_arg5) :=
  (W2_of_ne m ρ c main_arg5 (by decide)).trans (entry1_class_bias m ρ c)

/-! ## After the second stretch (the second call's entry) -/

theorem entry2_hidden (c : Dev nD) : V3 m ρ c main_v15 = hid m c := by
  refine Eq.trans ?_ (exit1_hidden m ρ c)
  show StableHlo.after hostOps1 (W2 m ρ c) (Proc.devRef .tc main_v15) = W2 m ρ c (Proc.devRef .tc main_v15)
  after_results

theorem entry2_class_weights (c : Dev nD) : V3 m ρ c main_arg4 = m ((c : Thread nD τ).loc main_arg4) := by
  refine Eq.trans ?_ (exit1_class_weights m ρ c)
  show StableHlo.after hostOps1 (W2 m ρ c) (Proc.devRef .tc main_arg4) = W2 m ρ c (Proc.devRef .tc main_arg4)
  after_results

theorem entry2_sums (c : Dev nD) :
    V3 m ρ c main_v25 = aggOf (srcOf (m ((c : Thread nD τ).loc main_arg1))) (dstOf (m ((c : Thread nD τ).loc main_arg1))) (hid m c) := by
  have h : V3 m ρ c main_v25 = aggOf (V2 m ρ c main_v1) (V2 m ρ c main_v3) (V2 m ρ c main_v15) := by
    show StableHlo.after hostOps1 (W2 m ρ c) (Proc.devRef .tc main_v25) = _
    after_results
    rfl
  rw [h, exit1_src, exit1_dst, exit1_hidden]

theorem entry2_class_bias (c : Dev nD) :
    V3 m ρ c main_v26 = shapeCast S1x2 (m ((c : Thread nD τ).loc main_arg5)) shapeCasts_S2_S1x2 := by
  have h : V3 m ρ c main_v26 = shapeCast S1x2 (V2 m ρ c main_arg5) shapeCasts_S2_S1x2 := by
    show StableHlo.after hostOps1 (W2 m ρ c) (Proc.devRef .tc main_v26) = _
    after_results
    rfl
  rw [h, exit1_class_bias]

/-! ## After the second call: the result -/

/-- @main's result buffer at the last boundary is the specification's network of the launch arrays. -/
theorem result (c : Dev nD) :
    V4 m ρ c main_v27
      = Gin.net (aggOf (srcOf (m ((c : Thread nD τ).loc main_arg1))) (dstOf (m ((c : Thread nD τ).loc main_arg1))))
          (m ((c : Thread nD τ).loc main_arg0)) (m ((c : Thread nD τ).loc main_arg2))
          (shapeCast S1x96 (m ((c : Thread nD τ).loc main_arg3)) shapeCasts_S96_S1x96)
          (m ((c : Thread nD τ).loc main_arg4))
          (shapeCast S1x2 (m ((c : Thread nD τ).loc main_arg5)) shapeCasts_S2_S1x2) := by
  refine (W4_arr m ρ c 4).trans ?_
  rw [Output.final (V3 m ρ) c, entry2_hidden, entry2_sums, entry2_class_weights, entry2_class_bias]
  rfl

end Cert.KernelIdeal.Value

end
-- ==== Proof.RefValue.lean ====
/-
  The reference's result as the two layers of the specification.
  Its host program computes, in order: the source and destination node of every edge (the two rows of the edge
  array, a negative source wrapped by the node count); the neighbour sums of the features (gather the source
  rows, add them into the destination rows of a zero array); the hidden layer of features and sums; the
  neighbour sums of the hidden features, by the same two operations over the same edge vectors; the output layer.
  Read entry by entry, each matrix product is the sum over the 96 shared features and each bias is repeated down
  the rows, so the two layers are the specification's `hidden` and `output`, and the two aggregations are one
  function `agg` of the edge array applied first to the features and then to the hidden features. What `agg`
  computes is never opened.
-/
import proofs.«148919_j36627481100824_1_alg».proof.Proof.Gen.ReferenceIdeal.Read
import proofs.«148919_j36627481100824_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem

/-! ## The neighbour aggregation, as one function of the edge array -/

/-- Add, into each destination node's row of a zero array, the rows of `z` at the edges' source nodes. -/
def agg (e : (⟨S2x800000, .i32⟩ : BufTy).Contents (Elt Ideal)) (z : FVec Ideal S50000x96 .f32) : FVec Ideal S50000x96 .f32 :=
  Host.scatterAdd (F := Ideal) (φ := .f32) scatter_S50000x96_S800000x1_S800000x96_1_0_0_1 (val_main_v11 (F := Ideal)) (val_main_v12 (F := Ideal) e)
    (Host.gather gather_S50000x96_S800000x1_S800000x96_1_0_n_n_0_1_196 z (val_main_v9 (F := Ideal) e))

set_option maxRecDepth 8192 in
/-- The first aggregation is `agg` of the features. -/
theorem sums_of_features (x0 : (⟨S50000x96, .f32⟩ : BufTy).Contents (Elt Ideal)) (x1 : (⟨S2x800000, .i32⟩ : BufTy).Contents (Elt Ideal)) :
    val_main_v13 (F := Ideal) x0 x1 = agg x1 x0 := rfl

set_option maxRecDepth 8192 in
/-- The second aggregation is `agg` of the hidden features: the second stretch builds the same edge vectors and
    the same zero array again. -/
theorem sums_of_hidden (x0 : (⟨S50000x96, .f32⟩ : BufTy).Contents (Elt Ideal)) (x1 : (⟨S2x800000, .i32⟩ : BufTy).Contents (Elt Ideal))
    (x2 : (⟨S96x96, .f32⟩ : BufTy).Contents (Elt Ideal)) (x3 : (⟨S96, .f32⟩ : BufTy).Contents (Elt Ideal)) :
    val_main_v29 (F := Ideal) x0 x1 x2 x3 = agg x1 (val_main_v19 (F := Ideal) x0 x1 x2 x3) := rfl

/-! ## Where an entry reads its operands: the specification's index functions -/

theorem feat_hid (i : S50000x96.Idx) (k : Fin 96) : lidx_main_v15 i k = Gin.featH i k :=
  funext fun a => by match a with | ⟨0, _⟩ => rfl | ⟨1, _⟩ => rfl
theorem wgt_hid (i : S50000x96.Idx) (k : Fin 96) : ridx_main_v15 i k = Gin.wgtH i k :=
  funext fun a => by match a with | ⟨0, _⟩ => rfl | ⟨1, _⟩ => rfl
theorem bias_hid (i : S50000x96.Idx) : idx_main_v17 i = Gin.biasH i :=
  funext fun a => by match a with | ⟨0, _⟩ => rfl | ⟨1, _⟩ => rfl
theorem feat_out (i : S50000x2.Idx) (k : Fin 96) : lidx_main_v31 i k = Gin.featO i k :=
  funext fun a => by match a with | ⟨0, _⟩ => rfl | ⟨1, _⟩ => rfl
theorem wgt_out (i : S50000x2.Idx) (k : Fin 96) : ridx_main_v31 i k = Gin.wgtO i k :=
  funext fun a => by match a with | ⟨0, _⟩ => rfl | ⟨1, _⟩ => rfl
theorem bias_out (i : S50000x2.Idx) : idx_main_v33 i = Gin.biasO i :=
  funext fun a => by match a with | ⟨0, _⟩ => rfl | ⟨1, _⟩ => rfl

/-! ## The two layers -/

/-- The hidden features are the specification's hidden layer of the features and their neighbour sums. -/
theorem hidden_eq (x0 : (⟨S50000x96, .f32⟩ : BufTy).Contents (Elt Ideal)) (x1 : (⟨S2x800000, .i32⟩ : BufTy).Contents (Elt Ideal))
    (x2 : (⟨S96x96, .f32⟩ : BufTy).Contents (Elt Ideal)) (x3 : (⟨S96, .f32⟩ : BufTy).Contents (Elt Ideal)) :
    val_main_v19 (F := Ideal) x0 x1 x2 x3 = Gin.hidden x0 (val_main_v13 (F := Ideal) x0 x1) x2 (val_main_v16 (F := Ideal) x3) := by
  funext i
  rw [val_main_v19_apply, val_main_v18_apply, val_main_v15_apply, val_main_v17_apply, val_main_call0_v0_apply, val_main_call0_cst_apply]
  simp only [val_main_v14_apply, feat_hid, wgt_hid, bias_hid]
  rfl

/-- The result is the specification's output layer of the hidden features and their neighbour sums. -/
theorem output_eq (x0 : (⟨S50000x96, .f32⟩ : BufTy).Contents (Elt Ideal)) (x1 : (⟨S2x800000, .i32⟩ : BufTy).Contents (Elt Ideal))
    (x2 : (⟨S96x96, .f32⟩ : BufTy).Contents (Elt Ideal)) (x3 : (⟨S96, .f32⟩ : BufTy).Contents (Elt Ideal))
    (x4 : (⟨S96x2, .f32⟩ : BufTy).Contents (Elt Ideal)) (x5 : (⟨S2, .f32⟩ : BufTy).Contents (Elt Ideal)) :
    val_main_v34 (F := Ideal) x0 x1 x2 x3 x4 x5
      = Gin.output (val_main_v19 (F := Ideal) x0 x1 x2 x3) (val_main_v29 (F := Ideal) x0 x1 x2 x3) x4 (val_main_v32 (F := Ideal) x5) := by
  funext i
  rw [val_main_v34_apply, val_main_v31_apply, val_main_v33_apply]
  simp only [val_main_v30_apply, feat_out, wgt_out, bias_out]
  rfl

/-! ## The bias rows: a rank-one bias laid out as one row -/

/-- The hidden bias as a row of 96, whichever of the two ways it is laid out: repeated into a new leading axis
    of length one, or recast to that shape. -/
theorem bias_row_hid (x3 : (⟨S96, .f32⟩ : BufTy).Contents (Elt Ideal)) (h : S96.ShapeCasts S1x96) :
    val_main_v16 (F := Ideal) x3 = shapeCast S1x96 x3 h := by
  funext i
  rw [val_main_v16_apply]
  refine (shapeCast_apply x3 h i (idx_main_v16 i) ?_).symm
  rewrite [Shape.rowMajor_val_two, Shape.rowMajor_val_one]
  have h0 : (i 0).val < 1 := (i 0).isLt
  show (i 1).val = (i 0).val * 96 + (i 1).val
  omega

/-- The class bias as a row of 2, likewise. -/
theorem bias_row_cls (x5 : (⟨S2, .f32⟩ : BufTy).Contents (Elt Ideal)) (h : S2.ShapeCasts S1x2) :
    val_main_v32 (F := Ideal) x5 = shapeCast S1x2 x5 h := by
  funext i
  rw [val_main_v32_apply]
  refine (shapeCast_apply x5 h i (idx_main_v32 i) ?_).symm
  rewrite [Shape.rowMajor_val_two, Shape.rowMajor_val_one]
  have h0 : (i 0).val < 1 := (i 0).isLt
  show (i 1).val = (i 0).val * 2 + (i 1).val
  omega

/-! ## The whole result -/

/-- The reference's result is the specification's network over `agg` of the edge array, the biases as rows. -/
theorem result_eq (x0 : (⟨S50000x96, .f32⟩ : BufTy).Contents (Elt Ideal)) (x1 : (⟨S2x800000, .i32⟩ : BufTy).Contents (Elt Ideal))
    (x2 : (⟨S96x96, .f32⟩ : BufTy).Contents (Elt Ideal)) (x3 : (⟨S96, .f32⟩ : BufTy).Contents (Elt Ideal))
    (x4 : (⟨S96x2, .f32⟩ : BufTy).Contents (Elt Ideal)) (x5 : (⟨S2, .f32⟩ : BufTy).Contents (Elt Ideal))
    (h3 : S96.ShapeCasts S1x96) (h5 : S2.ShapeCasts S1x2) :
    val_main_v34 (F := Ideal) x0 x1 x2 x3 x4 x5
      = Gin.net (agg x1) x0 x2 (shapeCast S1x96 x3 h3) x4 (shapeCast S1x2 x5 h5) := by
  rw [output_eq, sums_of_hidden, hidden_eq, sums_of_features, bias_row_hid x3 h3, bias_row_cls x5 h5]
  rfl

end Cert.ReferenceIdeal.RefValue

end
-- ==== Proof.lean ====
/-
  Two graph-isomorphism layers over 50000 nodes, 800000 edges and 96 features, against their plain reference.

  Both programs compute, on the host, the neighbour sums of the node features `x` (gather the rows at the edges'
  source nodes, add them into the rows of a zero array at the edges' destination nodes), then the hidden layer
  max((x + sums) · W1 + b1, 0), then the neighbour sums of the hidden features by the same operations over the
  same edge vectors, then the output layer (h + sums) · W2 + b2. The reference evaluates each layer as one whole
  matrix product on the host. The kernel program evaluates each layer in a call that walks ten blocks of 5000
  nodes: a point reads its block of features and of sums, the whole weights and the bias row, and writes its
  block of the result; its matrix product narrows the operands to bf16 and accumulates into zero.

  On the extended reals the narrowing is the identity and the product into zero is the plain sum over the 96
  shared features, so a written block is the corresponding block of the whole layer; a node's entry depends only
  on its own row, the ten blocks tile the rows, and each call leaves the whole layer in its result array
  (Proof/KPay, KHidden, KOutput). Reading @main's host stretches between the calls gives the kernel program's
  result as the specification's network (Proof/Spec) over one aggregation of the edge array (Proof/KValue), and
  reading the reference's operations one at a time gives the same network over the same aggregation
  (Proof/RefValue). The aggregation is the same function on both sides and is never opened; no law that needs
  finite inputs is used, only that both sides are the same sums in the same grouping.

  The three programs run, without a fault, leaving their arguments unchanged (the frames); the idealized kernel
  program is the printed one read on the extended reals, no operation rewritten, so nothing is owed for it.
-/
import proofs.«148919_j36627481100824_1_alg».proof.Defs
import proofs.«148919_j36627481100824_1_alg».proof.Proof.Gen.Kernel
import proofs.«148919_j36627481100824_1_alg».proof.Proof.Gen.Kernel.Frame
import proofs.«148919_j36627481100824_1_alg».proof.Proof.Gen.KernelIdeal
import proofs.«148919_j36627481100824_1_alg».proof.Proof.Gen.KernelIdeal.Frame
import proofs.«148919_j36627481100824_1_alg».proof.Proof.Gen.ReferenceIdeal
import proofs.«148919_j36627481100824_1_alg».proof.Proof.Gen.ReferenceIdeal.Run
import proofs.«148919_j36627481100824_1_alg».proof.Proof.Gen.ReferenceIdeal.Read
import proofs.«148919_j36627481100824_1_alg».proof.Proof.Gen.Pre_finite_inputs
import proofs.«148919_j36627481100824_1_alg».proof.Proof.KFrameNamed
import proofs.«148919_j36627481100824_1_alg».proof.Proof.KValue
import proofs.«148919_j36627481100824_1_alg».proof.Proof.RefValue
import Idealize.ShloMosaic.Adequacy
import Idealize.ShloMosaic.Init

noncomputable section

namespace Cert.Proof

open Idealize.ShloMosaic Idealize.ShloMosaic.TcCoe Idealize.SL.Sem

/-! ## The frames and the idealization -/

theorem frame_kernel : Cert.frame_Kernel := fun m ρ _ => Cert.Kernel.Gen.frame m ρ

theorem frame_kernel_ideal : Cert.frame_KernelIdeal := fun m ρ _ => Cert.KernelIdeal.Gen.frame m ρ

/-- The reference has no call: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-! ## One aggregation -/

set_option maxRecDepth 16384 in
/-- The kernel program's neighbour aggregation over the edge vectors it computes is the reference's aggregation
    of the edge array: the same gather and the same scatter-add over the same wrapped sources and destinations. -/
theorem agg_same (e : (⟨Cert.KernelIdeal.S2x800000, .i32⟩ : BufTy).Contents (Elt Ideal)) :
    Cert.KernelIdeal.Value.aggOf (Cert.KernelIdeal.Value.srcOf e) (Cert.KernelIdeal.Value.dstOf e)
      = Cert.ReferenceIdeal.RefValue.agg e := rfl

/-! ## Equal results -/

theorem algebraic : Cert.algebraic_KernelIdeal_ReferenceIdeal := by
  intro m ρ m' ρ' _ hagree
  refine ⟨fun c => Gin.net
      (Cert.KernelIdeal.Value.aggOf (Cert.KernelIdeal.Value.srcOf (m ((c.tc : Thread Cert.KernelIdeal.nD Cert.KernelIdeal.τ).loc Cert.KernelIdeal.main_arg1)))
        (Cert.KernelIdeal.Value.dstOf (m ((c.tc : Thread Cert.KernelIdeal.nD Cert.KernelIdeal.τ).loc Cert.KernelIdeal.main_arg1))))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (shapeCast Cert.KernelIdeal.S1x96 (m ((c.tc : Thread Cert.KernelIdeal.nD Cert.KernelIdeal.τ).loc Cert.KernelIdeal.main_arg3)) Cert.KernelIdeal.Gen.shapeCasts_S96_S1x96)
      (m ((c.tc : Thread Cert.KernelIdeal.nD Cert.KernelIdeal.τ).loc Cert.KernelIdeal.main_arg4))
      (shapeCast Cert.KernelIdeal.S1x2 (m ((c.tc : Thread Cert.KernelIdeal.nD Cert.KernelIdeal.τ).loc Cert.KernelIdeal.main_arg5)) Cert.KernelIdeal.Gen.shapeCasts_S2_S1x2),
    ?_, ?_⟩
  · exact (θ_run Cert.KernelIdeal.defs _ _).mono
      (fun r h c => ⟨(h c).1.trans (Cert.KernelIdeal.Value.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, (hagree c).1, (hagree c).2.1, (hagree c).2.2.1, (hagree c).2.2.2.1,
      (hagree c).2.2.2.2.1, (hagree c).2.2.2.2.2,
      Cert.ReferenceIdeal.RefValue.result_eq _ _ _ _ _ _ Cert.KernelIdeal.Gen.shapeCasts_S96_S1x96 Cert.KernelIdeal.Gen.shapeCasts_S2_S1x2,
      ← agg_same]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
